-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x24x2 : Shape := ⟨3, ![64, 24, 2]⟩
abbrev S295x64 : Shape := ⟨2, ![295, 64]⟩
abbrev S_ : Shape := ⟨0, ![]⟩

class Facts : Prop where
  bcast_S_S295x64 : S_.BroadcastsInDim S295x64 (![] : Fin 0 → Fin S295x64.rank)
  reducesTo_S295x64_S_d0_1 : S295x64.ReducesTo [0, 1] S_
  h_S_ : 0 < S_.numel

variable [Facts]

def fn {F : FTy → Type} [FloatOps F] (main_arg0 : IVec S64x24x2 32) (main_arg1 : FVec F S295x64 .f32) : IVec S_ 1 :=
  let main_v0 : FVec F S295x64 .f32 := Host.absf main_arg1
  let main_cst : FVec F S_ .f32 := constant S_ .f32 0x7F800000#32
  let main_v1 : FVec F S295x64 .f32 := broadcastInDim S295x64 ![] bcast_S_S295x64 main_cst
  let main_v2 : IVec S295x64 1 := cmpf .olt main_v0 main_v1
  let main_c : IVec S_ 1 := constantI S_ 1 1#1
  let main_v3 : IVec S_ 1 := (fun x v => Host.reduce IntOp.andi x v reducesTo_S295x64_S_d0_1 h_S_) main_v2 main_c
  main_v3
-- ==== Kernel.lean ====
abbrev S64x24x2 : Shape := ⟨3, ![64, 24, 2]⟩
abbrev S295x64 : Shape := ⟨2, ![295, 64]⟩
abbrev S64x24x1 : Shape := ⟨3, ![64, 24, 1]⟩
abbrev S64x24 : Shape := ⟨2, ![64, 24]⟩
abbrev S_ : Shape := ⟨0, ![]⟩
abbrev S64x24x64 : Shape := ⟨3, ![64, 24, 64]⟩
abbrev S64x64x24 : Shape := ⟨3, ![64, 64, 24]⟩
abbrev S64x1024x64x24 : Shape := ⟨4, ![64, 1024, 64, 24]⟩
abbrev S1x64x24 : Shape := ⟨3, ![1, 64, 24]⟩
abbrev S1x512x64x24 : Shape := ⟨4, ![1, 512, 64, 24]⟩
abbrev S1x1x64x24 : Shape := ⟨4, ![1, 1, 64, 24]⟩

abbrev nBuf : Space → Nat
  | .hbm => 74
  | .vmem => 4
  | .smem => 0
  | _ => 0

abbrev bufTy : (tb : Table) → Fin (tcTables nBuf tb) → BufTy
  | .hbm, ⟨0, _⟩ => ⟨S64x24x2, .i32⟩
  | .hbm, ⟨1, _⟩ => ⟨S295x64, .f32⟩
  | .hbm, ⟨2, _⟩ => ⟨S64x24x1, .i32⟩
  | .hbm, ⟨3, _⟩ => ⟨S64x24, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S64x24, .i32⟩
  | .hbm, ⟨11, _⟩ => ⟨S64x24, .i32⟩
  | .hbm, ⟨12, _⟩ => ⟨S_, .i32⟩
  | .hbm, ⟨13, _⟩ => ⟨S64x24, .i32⟩
  | .hbm, ⟨14, _⟩ => ⟨S64x24, .i1⟩
  | .hbm, ⟨15, _⟩ => ⟨S_, .i32⟩
  | .hbm, ⟨16, _⟩ => ⟨S64x24, .i32⟩
  | .hbm, ⟨17, _⟩ => ⟨S64x24, .i1⟩
  | .hbm, ⟨18, _⟩ => ⟨S_, .i32⟩
  | .hbm, ⟨19, _⟩ => ⟨S_, .i1⟩
  | .hbm, ⟨20, _⟩ => ⟨S64x24, .i1⟩
  | .hbm, ⟨21, _⟩ => ⟨S64x24, .i1⟩
  | .hbm, ⟨22, _⟩ => ⟨S64x24, .i1⟩
  | .hbm, ⟨23, _⟩ => ⟨S64x24, .i32⟩
  | .hbm, ⟨24, _⟩ => ⟨S64x24, .i32⟩
  | .hbm, ⟨25, _⟩ => ⟨S64x24, .i32⟩
  | .hbm, ⟨26, _⟩ => ⟨S64x24x1, .i32⟩
  | .hbm, ⟨27, _⟩ => ⟨S64x24, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S64x24, .i32⟩
  | .hbm, ⟨35, _⟩ => ⟨S64x24, .i32⟩
  | .hbm, ⟨36, _⟩ => ⟨S_, .i32⟩
  | .hbm, ⟨37, _⟩ => ⟨S64x24, .i32⟩
  | .hbm, ⟨38, _⟩ => ⟨S64x24, .i1⟩
  | .hbm, ⟨39, _⟩ => ⟨S_, .i32⟩
  | .hbm, ⟨40, _⟩ => ⟨S64x24, .i32⟩
  | .hbm, ⟨41, _⟩ => ⟨S64x24, .i1⟩
  | .hbm, ⟨42, _⟩ => ⟨S_, .i32⟩
  | .hbm, ⟨43, _⟩ => ⟨S_, .i1⟩
  | .hbm, ⟨44, _⟩ => ⟨S64x24, .i1⟩
  | .hbm, ⟨45, _⟩ => ⟨S64x24, .i1⟩
  | .hbm, ⟨46, _⟩ => ⟨S64x24, .i1⟩
  | .hbm, ⟨47, _⟩ => ⟨S64x24, .i32⟩
  | .hbm, ⟨48, _⟩ => ⟨S64x24, .i32⟩
  | .hbm, ⟨49, _⟩ => ⟨S64x24, .i32⟩
  | .hbm, ⟨50, _⟩ => ⟨S_, .i32⟩
  | .hbm, ⟨51, _⟩ => ⟨S64x24, .i32⟩
  | .hbm, ⟨52, _⟩ => ⟨S64x24, .i1⟩
  | .hbm, ⟨53, _⟩ => ⟨S_, .i32⟩
  | .hbm, ⟨54, _⟩ => ⟨S64x24, .i32⟩
  | .hbm, ⟨55, _⟩ => ⟨S64x24, .i32⟩
  | .hbm, ⟨56, _⟩ => ⟨S64x24, .i32⟩
  | .hbm, ⟨57, _⟩ => ⟨S64x24x1, .i32⟩
  | .hbm, ⟨58, _⟩ => ⟨S64x24x64, .f32⟩
  | .hbm, ⟨59, _⟩ => ⟨S_, .i32⟩
  | .hbm, ⟨60, _⟩ => ⟨S64x24, .i32⟩
  | .hbm, ⟨61, _⟩ => ⟨S64x24, .i32⟩
  | .hbm, ⟨62, _⟩ => ⟨S_, .i32⟩
  | .hbm, ⟨63, _⟩ => ⟨S64x24, .i32⟩
  | .hbm, ⟨64, _⟩ => ⟨S64x24, .i1⟩
  | .hbm, ⟨65, _⟩ => ⟨S_, .i32⟩
  | .hbm, ⟨66, _⟩ => ⟨S64x24, .i32⟩
  | .hbm, ⟨67, _⟩ => ⟨S64x24, .i32⟩
  | .hbm, ⟨68, _⟩ => ⟨S64x24, .i32⟩
  | .hbm, ⟨69, _⟩ => ⟨S64x24x1, .i32⟩
  | .hbm, ⟨70, _⟩ => ⟨S64x24x64, .f32⟩
  | .hbm, ⟨71, _⟩ => ⟨S64x24x64, .f32⟩
  | .hbm, ⟨72, _⟩ => ⟨S64x64x24, .f32⟩
  | .hbm, ⟨73, _⟩ => ⟨S64x1024x64x24, .f32⟩
  | .local _ .vmem, ⟨0, _⟩ => ⟨S1x64x24, .f32⟩
  | .local _ .vmem, ⟨1, _⟩ => ⟨S1x64x24, .f32⟩
  | .local _ .vmem, ⟨2, _⟩ => ⟨S1x512x64x24, .f32⟩
  | .local _ .vmem, ⟨3, _⟩ => ⟨S1x512x64x24, .f32⟩
  | _, _ => ⟨S64x24x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_c_3 : Ref sig .tc := ⟨.hbm, 59, rfl⟩
abbrev main_v13 : Ref sig .tc := ⟨.hbm, 60, rfl⟩
abbrev main_v14 : Ref sig .tc := ⟨.hbm, 61, rfl⟩
abbrev main_c_4 : Ref sig .tc := ⟨.hbm, 62, rfl⟩
abbrev main_v15 : Ref sig .tc := ⟨.hbm, 63, rfl⟩
abbrev main_v16 : Ref sig .tc := ⟨.hbm, 64, rfl⟩
abbrev main_c_5 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  slices_S64x24x2_S64x24x1_0_0_0 : S64x24x2.Slices ![0, 0, 0] S64x24x1
  shapeCasts_S64x24x1_S64x24 : S64x24x1.ShapeCasts S64x24
  bcast_S_S64x24 : S_.BroadcastsInDim S64x24 (![] : Fin 0 → Fin S64x24.rank)
  slices_S64x24x2_S64x24x1_0_0_1 : S64x24x2.Slices ![0, 0, 1] S64x24x1
  bcast_S64x24_S64x24x1_0_1 : S64x24.BroadcastsInDim S64x24x1 (![0, 1] : Fin 2 → Fin S64x24x1.rank)
  transposes_S64x24x64_S64x64x24_0_2_1 : S64x24x64.Transposes [0, 2, 1] S64x64x24
  inb_S1x64x24_S1x64x24_0_0_0 : ∀ a, (![0, 0, 0] : Fin 3 → Nat) a + S1x64x24.size a ≤ S1x64x24.size a
  h_S1x64x24 : 0 < S1x64x24.numel
  shapeCasts_S1x64x24_S1x64x24 : S1x64x24.ShapeCasts S1x64x24
  shapeCasts_S1x64x24_S1x1x64x24 : S1x64x24.ShapeCasts S1x1x64x24
  shapeCasts_S1x1x64x24_S1x1x64x24 : S1x1x64x24.ShapeCasts S1x1x64x24
  broadcasts_S1x1x64x24_S1x512x64x24 : S1x1x64x24.Broadcasts S1x512x64x24
  inb_S1x512x64x24_S1x512x64x24_0_0_0_0 : ∀ a, (![0, 0, 0, 0] : Fin 4 → Nat) a + S1x512x64x24.size a ≤ S1x512x64x24.size a
  h_S1x512x64x24 : 0 < S1x512x64x24.numel
  gather_S295x64_S64x24x1_S64x24x64_2_0_n_n_0_2_164_wf : GatherDims.WF S295x64 S64x24x1 S64x24x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x24.size a ≤ S64x64x24.size a
  hwx0_0 : ∀ i : grid0.Coords, EltTy.bits .f32 = 32 ∨ (Rect.block (s := S64x64x24) S1x64x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64x24.size a ≤ S64x1024x64x24.size a
  hwx0_1 : ∀ i : grid0.Coords, EltTy.bits .f32 = 32 ∨ (Rect.block (s := S64x1024x64x24) S1x512x64x24.size (cc0_transform_1 i) (hinb0_1 i)).WholeWords (EltTy.packing .f32)

variable [Facts₀]

def gather_S295x64_S64x24x1_S64x24x64_2_0_n_n_0_2_164 : GatherDims S295x64 S64x24x1 S64x24x64 where
  offsetDims := [2]
  collapsedSliceDims := [0]
  operandBatchingDims := []
  startIndicesBatchingDims := []
  startIndexMap := [0]
  indexVectorDim := 2
  sliceSizes := ![1, 64]
  wf := gather_S295x64_S64x24x1_S64x24x64_2_0_n_n_0_2_164_wf

abbrev win0_0 : Pipeline.Window sig grid0 :=
  Pipeline.Window.ofSpec (Memref.whole main_v23) S1x64x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x512x64x24.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x24x2 : Shape := ⟨3, ![64, 24, 2]⟩
abbrev S295x64 : Shape := ⟨2, ![295, 64]⟩
abbrev S64x24x1 : Shape := ⟨3, ![64, 24, 1]⟩
abbrev S64x24 : Shape := ⟨2, ![64, 24]⟩
abbrev S_ : Shape := ⟨0, ![]⟩
abbrev S64x24x64 : Shape := ⟨3, ![64, 24, 64]⟩
abbrev S64x64x24 : Shape := ⟨3, ![64, 64, 24]⟩
abbrev S64x1x64x24 : Shape := ⟨4, ![64, 1, 64, 24]⟩
abbrev S64x1024x64x24 : Shape := ⟨4, ![64, 1024, 64, 24]⟩

abbrev nBuf : Space → Nat
  | .hbm => 75
  | .vmem => 0
  | .smem => 0
  | _ => 0

abbrev bufTy : (tb : Table) → Fin (tcTables nBuf tb) → BufTy
  | .hbm, ⟨0, _⟩ => ⟨S64x24x2, .i32⟩
  | .hbm, ⟨1, _⟩ => ⟨S295x64, .f32⟩
  | .hbm, ⟨2, _⟩ => ⟨S64x24x1, .i32⟩
  | .hbm, ⟨3, _⟩ => ⟨S64x24, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S64x24, .i32⟩
  | .hbm, ⟨11, _⟩ => ⟨S64x24, .i32⟩
  | .hbm, ⟨12, _⟩ => ⟨S_, .i32⟩
  | .hbm, ⟨13, _⟩ => ⟨S64x24, .i32⟩
  | .hbm, ⟨14, _⟩ => ⟨S64x24, .i1⟩
  | .hbm, ⟨15, _⟩ => ⟨S_, .i32⟩
  | .hbm, ⟨16, _⟩ => ⟨S64x24, .i32⟩
  | .hbm, ⟨17, _⟩ => ⟨S64x24, .i1⟩
  | .hbm, ⟨18, _⟩ => ⟨S_, .i32⟩
  | .hbm, ⟨19, _⟩ => ⟨S_, .i1⟩
  | .hbm, ⟨20, _⟩ => ⟨S64x24, .i1⟩
  | .hbm, ⟨21, _⟩ => ⟨S64x24, .i1⟩
  | .hbm, ⟨22, _⟩ => ⟨S64x24, .i1⟩
  | .hbm, ⟨23, _⟩ => ⟨S64x24, .i32⟩
  | .hbm, ⟨24, _⟩ => ⟨S64x24, .i32⟩
  | .hbm, ⟨25, _⟩ => ⟨S64x24, .i32⟩
  | .hbm, ⟨26, _⟩ => ⟨S64x24x1, .i32⟩
  | .hbm, ⟨27, _⟩ => ⟨S64x24, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S64x24, .i32⟩
  | .hbm, ⟨35, _⟩ => ⟨S64x24, .i32⟩
  | .hbm, ⟨36, _⟩ => ⟨S_, .i32⟩
  | .hbm, ⟨37, _⟩ => ⟨S64x24, .i32⟩
  | .hbm, ⟨38, _⟩ => ⟨S64x24, .i1⟩
  | .hbm, ⟨39, _⟩ => ⟨S_, .i32⟩
  | .hbm, ⟨40, _⟩ => ⟨S64x24, .i32⟩
  | .hbm, ⟨41, _⟩ => ⟨S64x24, .i1⟩
  | .hbm, ⟨42, _⟩ => ⟨S_, .i32⟩
  | .hbm, ⟨43, _⟩ => ⟨S_, .i1⟩
  | .hbm, ⟨44, _⟩ => ⟨S64x24, .i1⟩
  | .hbm, ⟨45, _⟩ => ⟨S64x24, .i1⟩
  | .hbm, ⟨46, _⟩ => ⟨S64x24, .i1⟩
  | .hbm, ⟨47, _⟩ => ⟨S64x24, .i32⟩
  | .hbm, ⟨48, _⟩ => ⟨S64x24, .i32⟩
  | .hbm, ⟨49, _⟩ => ⟨S64x24, .i32⟩
  | .hbm, ⟨50, _⟩ => ⟨S_, .i32⟩
  | .hbm, ⟨51, _⟩ => ⟨S64x24, .i32⟩
  | .hbm, ⟨52, _⟩ => ⟨S64x24, .i1⟩
  | .hbm, ⟨53, _⟩ => ⟨S_, .i32⟩
  | .hbm, ⟨54, _⟩ => ⟨S64x24, .i32⟩
  | .hbm, ⟨55, _⟩ => ⟨S64x24, .i32⟩
  | .hbm, ⟨56, _⟩ => ⟨S64x24, .i32⟩
  | .hbm, ⟨57, _⟩ => ⟨S64x24x1, .i32⟩
  | .hbm, ⟨58, _⟩ => ⟨S64x24x64, .f32⟩
  | .hbm, ⟨59, _⟩ => ⟨S_, .i32⟩
  | .hbm, ⟨60, _⟩ => ⟨S64x24, .i32⟩
  | .hbm, ⟨61, _⟩ => ⟨S64x24, .i32⟩
  | .hbm, ⟨62, _⟩ => ⟨S_, .i32⟩
  | .hbm, ⟨63, _⟩ => ⟨S64x24, .i32⟩
  | .hbm, ⟨64, _⟩ => ⟨S64x24, .i1⟩
  | .hbm, ⟨65, _⟩ => ⟨S_, .i32⟩
  | .hbm, ⟨66, _⟩ => ⟨S64x24, .i32⟩
  | .hbm, ⟨67, _⟩ => ⟨S64x24, .i32⟩
  | .hbm, ⟨68, _⟩ => ⟨S64x24, .i32⟩
  | .hbm, ⟨69, _⟩ => ⟨S64x24x1, .i32⟩
  | .hbm, ⟨70, _⟩ => ⟨S64x24x64, .f32⟩
  | .hbm, ⟨71, _⟩ => ⟨S64x24x64, .f32⟩
  | .hbm, ⟨72, _⟩ => ⟨S64x64x24, .f32⟩
  | .hbm, ⟨73, _⟩ => ⟨S64x1x64x24, .f32⟩
  | .hbm, ⟨74, _⟩ => ⟨S64x1024x64x24, .f32⟩
  | _, _ => ⟨S64x24x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_c_3 : Ref sig .tc := ⟨.hbm, 59, rfl⟩
abbrev main_v13 : Ref sig .tc := ⟨.hbm, 60, rfl⟩
abbrev main_v14 : Ref sig .tc := ⟨.hbm, 61, rfl⟩
abbrev main_c_4 : Ref sig .tc := ⟨.hbm, 62, rfl⟩
abbrev main_v15 : Ref sig .tc := ⟨.hbm, 63, rfl⟩
abbrev main_v16 : Ref sig .tc := ⟨.hbm, 64, rfl⟩
abbrev main_c_5 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩

abbrev nD : Nat := 1
abbrev τ : Topo := Topo.v7x

variable {F : FTy → Type} [FloatOps F]

class Facts₀ : Prop where
  slices_S64x24x2_S64x24x1_0_0_0 : S64x24x2.Slices ![0, 0, 0] S64x24x1
  shapeCasts_S64x24x1_S64x24 : S64x24x1.ShapeCasts S64x24
  bcast_S_S64x24 : S_.BroadcastsInDim S64x24 (![] : Fin 0 → Fin S64x24.rank)
  slices_S64x24x2_S64x24x1_0_0_1 : S64x24x2.Slices ![0, 0, 1] S64x24x1
  bcast_S64x24_S64x24x1_0_1 : S64x24.BroadcastsInDim S64x24x1 (![0, 1] : Fin 2 → Fin S64x24x1.rank)
  transposes_S64x24x64_S64x64x24_0_2_1 : S64x24x64.Transposes [0, 2, 1] S64x64x24
  bcast_S64x64x24_S64x1x64x24_0_2_3 : S64x64x24.BroadcastsInDim S64x1x64x24 (![0, 2, 3] : Fin 3 → Fin S64x1x64x24.rank)
  bcast_S64x1x64x24_S64x1024x64x24_0_1_2_3 : S64x1x64x24.BroadcastsInDim S64x1024x64x24 (![0, 1, 2, 3] : Fin 4 → Fin S64x1024x64x24.rank)
  gather_S295x64_S64x24x1_S64x24x64_2_0_n_n_0_2_164_wf : GatherDims.WF S295x64 S64x24x1 S64x24x64 [2] [0] [] [0] [] 2 ![1, 64]

variable [Facts₀]

def gather_S295x64_S64x24x1_S64x24x64_2_0_n_n_0_2_164 : GatherDims S295x64 S64x24x1 S64x24x64 where
  offsetDims := [2]
  collapsedSliceDims := [0]
  operandBatchingDims := []
  startIndicesBatchingDims := []
  startIndexMap := [0]
  indexVectorDim := 2
  sliceSizes := ![1, 64]
  wf := gather_S295x64_S64x24x1_S64x24x64_2_0_n_n_0_2_164_wf

class Facts : Prop extends Facts₀ where

variable [Facts]
-- ==== Proof.KernelValue.lean ====
/-
  What the kernel's output array holds after the run, as one function of the slab the region is entered with.

  The pallas_call walks a 64 × 2 grid. At point (b, h) it fetches the [1, 64, 24] block b of the slab
  e : [64, 64, 24], inserts a unit axis, repeats it 512 times along that axis and writes the result back as block
  (b, h) of the output [64, 1024, 64, 24]. So output entry (b, n, c, s) is e (b, c, s), whatever n is: the block
  that holds row n is h = n / 512, and every one of its 512 rows is the same copy of e (b, ·, ·).
-/
import proofs.«118506_j33981781246639_1_alg».proof.Proof.Gen.KernelIdeal.Value
import Idealize.ShloMosaic.Lib.ValueIdx

noncomputable section

namespace Cert.KernelIdeal.Repeat

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- The slab repeated along a new second axis of extent 1024: entry (b, n, c, s) is `e (b, c, s)`. -/
def repeatSlab (e : S64x64x24.Idx → Elt F .f32) : S64x1024x64x24.Idx → Elt F .f32 :=
  fun i => e (ix3 (n0 := 64) (n1 := 64) (n2 := 24) (i 0) (i 2) (i 3))

theorem repeatSlab_apply (e : S64x64x24.Idx → Elt F .f32) (b : Fin 64) (n : Fin 1024) (c : Fin 64) (s : Fin 24) :
    repeatSlab e (ix4 b n c s) = e (ix3 b c s) := rfl

variable (m : (ℓ : Loc nD τ sig) → Buf (Elt F) ℓ) (ρ : Dev nD → PrngReg)

theorem offsets_zero : (![0, 0, 0] : Fin 3 → Nat) = fun _ => 0 := funext fun a => by fin_cases a <;> rfl

/-- The two index maps over the grid: the input block follows the output block's first coordinate and sits at
    block 0 on its other axes; the output block is (b, h, 0, 0) with b < 64 and h < 2. -/
theorem index_facts : ∀ t : Fin cfg0.N, win0_0.index t (0 : Fin 3) = win0_1.index t (0 : Fin 4)
    ∧ win0_0.index t (1 : Fin 3) = 0 ∧ win0_0.index t (2 : Fin 3) = 0
    ∧ win0_1.index t (2 : Fin 4) = 0 ∧ win0_1.index t (3 : Fin 4) = 0
    ∧ win0_1.index t (0 : Fin 4) < 64 ∧ win0_1.index t (1 : Fin 4) < 2 :=
  (by decide +kernel : ∀ t : Fin grid0.N, _)

/-- Every output block (b, h, 0, 0) is some grid point's. -/
theorem index_onto : ∀ (b : Fin 64) (h : Fin 2), ∃ t : Fin cfg0.N, win0_1.index t = ![b.val, h.val, 0, 0] :=
  (by decide +kernel : ∀ (b : Fin 64) (h : Fin 2), ∃ t : Fin grid0.N, win0_1.index t = ![b.val, h.val, 0, 0])

/-- What grid point `t` writes back is block `t` of the repeated slab. -/
theorem flushed_eq (c : Dev nD) (t : Fin cfg0.N) :
    (dats m 0 c).flushed 1 t = ((cfg0.win 1).blk t).view.read (Elt F) (repeatSlab (V m c main_v23)) := by
  show (cfg0.win 1).cut (grid0.coords t) ((dats m 0 c).after 1 t) = _
  rw [after0_1]
  unfold out0_1
  obtain ⟨e0, e1, e2, e3, e4, e5, e6⟩ := index_facts t
  funext j
  show View.canon [⟨r0_1, k0_pay1 (View.ld (iblk m c 0 t) r0_0)⟩] j = repeatSlab (V m c main_v23) (((cfg0.win 1).blk t).view.emb j)
  rw [Value.canon1_eq]
  show View.ld (iblk m c 0 t) r0_0 (Value.ix1_0 j) = _
  rw [View.ld_unit_zero (S := S1x64x24) offsets_zero]
  show V m c main_v23 (((cfg0.win 0).blk t).view.emb (Value.ix1_0 j)) = V m c main_v23 _
  congr 1
  funext a; apply Fin.ext
  have h0 : (j 0).val < 1 := (j 0).isLt
  match a with
  | ⟨0, _⟩ => show win0_0.index t (0 : Fin 3) * 1 + 1 * 0 = win0_1.index t (0 : Fin 4) * 1 + 1 * (j 0).val; omega
  | ⟨1, _⟩ => show win0_0.index t (1 : Fin 3) * 64 + 1 * (j 2).val = win0_1.index t (2 : Fin 4) * 64 + 1 * (j 2).val; omega
  | ⟨2, _⟩ => show win0_0.index t (2 : Fin 3) * 24 + 1 * (j 3).val = win0_1.index t (3 : Fin 4) * 24 + 1 * (j 3).val; omega

/-- An index of the output array lies in point `t`'s block iff each coordinate lies in the block's range. -/
theorem mem_blk (t : Fin cfg0.N) (i : S64x1024x64x24.Idx) :
    i ∈ ((cfg0.win 1).blk t).view.set ↔ ∀ a : Fin 4, win0_1.index t a * S1x512x64x24.size a ≤ (i a).val
      ∧ (i a).val < win0_1.index t a * S1x512x64x24.size a + S1x512x64x24.size a := by
  show i ∈ ((View.whole main_v24).slice (win0_1.rect t)).set ↔ _
  rw [View.set_slice_whole, Rect.mem_set_unit]
  exact Iff.rfl

/-- The blocks fill the output array: entry (b, n, c, s) is in block (b, n / 512). -/
theorem covered (i : S64x1024x64x24.Idx) :
    ∃ t : Fin cfg0.N, (cfg0.win 1).flush t = true ∧ i ∈ ((cfg0.win 1).blk t).view.set := by
  have hi0 : (i 0).val < 64 := (i 0).isLt
  have hi1 : (i 1).val < 1024 := (i 1).isLt
  have hi2 : (i 2).val < 64 := (i 2).isLt
  have hi3 : (i 3).val < 24 := (i 3).isLt
  obtain ⟨t, ht⟩ := index_onto ⟨(i 0).val, hi0⟩ ⟨(i 1).val / 512, by omega⟩
  have q0 : win0_1.index t (0 : Fin 4) = (i 0).val := congrFun ht 0
  have q1 : win0_1.index t (1 : Fin 4) = (i 1).val / 512 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 512 ≤ (i 1).val ∧ (i 1).val < win0_1.index t (1 : Fin 4) * 512 + 512; omega
  | ⟨2, _⟩ => show win0_1.index t (2 : Fin 4) * 64 ≤ (i 2).val ∧ (i 2).val < win0_1.index t (2 : Fin 4) * 64 + 64; omega
  | ⟨3, _⟩ => show win0_1.index t (3 : Fin 4) * 24 ≤ (i 3).val ∧ (i 3).val < win0_1.index t (3 : Fin 4) * 24 + 24; omega

/-- The output array after the run is the repeated slab. -/
theorem final (c : Dev nD) : (dats m 0 c).arrAt 1 cfg0.N = repeatSlab (V m c main_v23) :=
  (dats m 0 c).arrAt_eq_of_cover 1 (repeatSlab (V m c main_v23)) (fun t _ => flushed_eq m c t) covered

/-- The kernel's run: every weakly fair execution ends with the result array at the repeated slab, the slab being
    what the host operations before the call leave in its buffer, and with the arguments unchanged. -/
theorem run : θ_run defs (onTc (τ := τ) (main (F := F))) ⟨m, fun _ => 0, ρ⟩ fun r => ∀ c : Dev nD,
      r.2.mem ((c : Thread nD τ).loc main_v24) = repeatSlab (V m c main_v23)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Repeat

end
-- ==== Proof.ReferenceRun.lean ====
/-
  The reference program's run, read back.

  @main of the reference is a straight line once its two calls of @remainder (each with its call of @_where) are
  unfolded: seventy-one host operations that compute the slab e : [64, 64, 24] —
  the day-of-week index t[.., 0] mod 7 and the time-of-day index 7 + (t[.., 1] mod 288), each made non-negative the
  way jnp's remainder and indexing do, the two row gathers of W, their sum, and the transpose to [B, C, T] — followed
  by two broadcasts that insert the vertex axis and repeat the slab 1024 times along it. Every weakly fair execution
  terminates with each buffer at the fold of these operations over the launch contents; the result buffer is then the
  two broadcasts applied to whatever the first seventy-one operations leave in the slab's buffer, and the argument
  buffers are never written.
-/
import proofs.«118506_j33981781246639_1_alg».proof.Proof.Gen.ReferenceIdeal
import Idealize.ShloMosaic.Lib.StableHlo.Run
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem
open Idealize.ShloMosaic.StableHlo

variable {F : FTy → Type} [FloatOps F]

/-- The operations that compute the slab, in program order, the calls unfolded: the first column of `t` and the
    modulus 7; one call of @remainder (twenty-one operations: the modulus guarded against zero, the truncated
    remainder, and the correction `+ modulus` where the remainder is non-zero and its sign differs from the
    modulus's); the second column and the modulus 288; the second call; then the wrap of negative indices by 295,
    the two gathers of rows of `W`, their sum and the transpose. -/
abbrev slabOps : List (HloOp τ sig (Elt F)) :=
  [ unary main_arg0 main_v0 ((extractStridedSlice S64x24x1 ![0, 0, 0] · slices_S64x24x2_S64x24x1_0_0_0) : (⟨S64x24x2, .i32⟩ : BufTy).Contents (Elt F) → (⟨S64x24x1, .i32⟩ : BufTy).Contents (Elt F)),
    reshape main_v0 main_v1 rfl shapeCasts_S64x24x1_S64x24,
    nullary main_c (constantI S_ 32 7#32),
    -- @remainder(%1, 7)
    TRef.unary (.of main_c : TRef sig ⟨S_, .i32⟩) (.of main_call0_v0 : TRef sig ⟨S_, .i32⟩) id,
    TRef.nullary (.of main_call0_c : TRef sig ⟨S_, .i32⟩) (constantI S_ 32 0#32),
    TRef.binary (.of main_call0_v0 : TRef sig ⟨S_, .i32⟩) (.of main_call0_c : TRef sig ⟨S_, .i32⟩) (.of main_call0_v1 : TRef sig ⟨S_, .i1⟩) (cmpi .eq),
    TRef.nullary (.of main_call0_c_0 : TRef sig ⟨S_, .i32⟩) (constantI S_ 32 1#32),
    TRef.ternary (.of main_call0_v1 : TRef sig ⟨S_, .i1⟩) (.of main_call0_c_0 : TRef sig ⟨S_, .i32⟩) (.of main_call0_v0 : TRef sig ⟨S_, .i32⟩) (.of main_call0_v2 : TRef sig ⟨S_, .i32⟩) select,
    TRef.unary (.of main_call0_v2 : TRef sig ⟨S_, .i32⟩) (.of main_call0_v3 : TRef sig ⟨S64x24, .i32⟩) (broadcastInDim S64x24 ![] bcast_S_S64x24),
    TRef.binary (.of main_v1 : TRef sig ⟨S64x24, .i32⟩) (.of main_call0_v3 : TRef sig ⟨S64x24, .i32⟩) (.of main_call0_v4 : TRef sig ⟨S64x24, .i32⟩) Host.remsi,
    TRef.nullary (.of main_call0_c_1 : TRef sig ⟨S_, .i32⟩) (constantI S_ 32 0#32),
    TRef.unary (.of main_call0_c_1 : TRef sig ⟨S_, .i32⟩) (.of main_call0_v5 : TRef sig ⟨S64x24, .i32⟩) (broadcastInDim S64x24 ![] bcast_S_S64x24),
    TRef.binary (.of main_call0_v4 : TRef sig ⟨S64x24, .i32⟩) (.of main_call0_v5 : TRef sig ⟨S64x24, .i32⟩) (.of main_call0_v6 : TRef sig ⟨S64x24, .i1⟩) (cmpi .ne),
    TRef.nullary (.of main_call0_c_2 : TRef sig ⟨S_, .i32⟩) (constantI S_ 32 0#32),
    TRef.unary (.of main_call0_c_2 : TRef sig ⟨S_, .i32⟩) (.of main_call0_v7 : TRef sig ⟨S64x24, .i32⟩) (broadcastInDim S64x24 ![] bcast_S_S64x24),
    TRef.binary (.of main_call0_v4 : TRef sig ⟨S64x24, .i32⟩) (.of main_call0_v7 : TRef sig ⟨S64x24, .i32⟩) (.of main_call0_v8 : TRef sig ⟨S64x24, .i1⟩) (cmpi .slt),
    TRef.nullary (.of main_call0_c_3 : TRef sig ⟨S_, .i32⟩) (constantI S_ 32 0#32),
    TRef.binary (.of main_call0_v2 : TRef sig ⟨S_, .i32⟩) (.of main_call0_c_3 : TRef sig ⟨S_, .i32⟩) (.of main_call0_v9 : TRef sig ⟨S_, .i1⟩) (cmpi .slt),
    TRef.unary (.of main_call0_v9 : TRef sig ⟨S_, .i1⟩) (.of main_call0_v10 : TRef sig ⟨S64x24, .i1⟩) (broadcastInDim S64x24 ![] bcast_S_S64x24),
    TRef.binary (.of main_call0_v8 : TRef sig ⟨S64x24, .i1⟩) (.of main_call0_v10 : TRef sig ⟨S64x24, .i1⟩) (.of main_call0_v11 : TRef sig ⟨S64x24, .i1⟩) (cmpi .ne),
    TRef.binary (.of main_call0_v11 : TRef sig ⟨S64x24, .i1⟩) (.of main_call0_v6 : TRef sig ⟨S64x24, .i1⟩) (.of main_call0_v12 : TRef sig ⟨S64x24, .i1⟩) andi,
    TRef.unary (.of main_call0_v2 : TRef sig ⟨S_, .i32⟩) (.of main_call0_v13 : TRef sig ⟨S64x24, .i32⟩) (broadcastInDim S64x24 ![] bcast_S_S64x24),
    TRef.binary (.of main_call0_v4 : TRef sig ⟨S64x24, .i32⟩) (.of main_call0_v13 : TRef sig ⟨S64x24, .i32⟩) (.of main_call0_v14 : TRef sig ⟨S64x24, .i32⟩) addi,
    TRef.ternary (.of main_call0_v12 : TRef sig ⟨S64x24, .i1⟩) (.of main_call0_v14 : TRef sig ⟨S64x24, .i32⟩) (.of main_call0_v4 : TRef sig ⟨S64x24, .i32⟩) (.of main_v2 : TRef sig ⟨S64x24, .i32⟩) select,
    -- the second column and its modulus
    unary main_arg0 main_v3 ((extractStridedSlice S64x24x1 ![0, 0, 1] · slices_S64x24x2_S64x24x1_0_0_1) : (⟨S64x24x2, .i32⟩ : BufTy).Contents (Elt F) → (⟨S64x24x1, .i32⟩ : BufTy).Contents (Elt F)),
    reshape main_v3 main_v4 rfl shapeCasts_S64x24x1_S64x24,
    nullary main_c_0 (constantI S_ 32 288#32),
    -- @remainder(%4, 288)
    TRef.unary (.of main_c_0 : TRef sig ⟨S_, .i32⟩) (.of main_call1_v0 : TRef sig ⟨S_, .i32⟩) id,
    TRef.nullary (.of main_call1_c : TRef sig ⟨S_, .i32⟩) (constantI S_ 32 0#32),
    TRef.binary (.of main_call1_v0 : TRef sig ⟨S_, .i32⟩) (.of main_call1_c : TRef sig ⟨S_, .i32⟩) (.of main_call1_v1 : TRef sig ⟨S_, .i1⟩) (cmpi .eq),
    TRef.nullary (.of main_call1_c_0 : TRef sig ⟨S_, .i32⟩) (constantI S_ 32 1#32),
    TRef.ternary (.of main_call1_v1 : TRef sig ⟨S_, .i1⟩) (.of main_call1_c_0 : TRef sig ⟨S_, .i32⟩) (.of main_call1_v0 : TRef sig ⟨S_, .i32⟩) (.of main_call1_v2 : TRef sig ⟨S_, .i32⟩) select,
    TRef.unary (.of main_call1_v2 : TRef sig ⟨S_, .i32⟩) (.of main_call1_v3 : TRef sig ⟨S64x24, .i32⟩) (broadcastInDim S64x24 ![] bcast_S_S64x24),
    TRef.binary (.of main_v4 : TRef sig ⟨S64x24, .i32⟩) (.of main_call1_v3 : TRef sig ⟨S64x24, .i32⟩) (.of main_call1_v4 : TRef sig ⟨S64x24, .i32⟩) Host.remsi,
    TRef.nullary (.of main_call1_c_1 : TRef sig ⟨S_, .i32⟩) (constantI S_ 32 0#32),
    TRef.unary (.of main_call1_c_1 : TRef sig ⟨S_, .i32⟩) (.of main_call1_v5 : TRef sig ⟨S64x24, .i32⟩) (broadcastInDim S64x24 ![] bcast_S_S64x24),
    TRef.binary (.of main_call1_v4 : TRef sig ⟨S64x24, .i32⟩) (.of main_call1_v5 : TRef sig ⟨S64x24, .i32⟩) (.of main_call1_v6 : TRef sig ⟨S64x24, .i1⟩) (cmpi .ne),
    TRef.nullary (.of main_call1_c_2 : TRef sig ⟨S_, .i32⟩) (constantI S_ 32 0#32),
    TRef.unary (.of main_call1_c_2 : TRef sig ⟨S_, .i32⟩) (.of main_call1_v7 : TRef sig ⟨S64x24, .i32⟩) (broadcastInDim S64x24 ![] bcast_S_S64x24),
    TRef.binary (.of main_call1_v4 : TRef sig ⟨S64x24, .i32⟩) (.of main_call1_v7 : TRef sig ⟨S64x24, .i32⟩) (.of main_call1_v8 : TRef sig ⟨S64x24, .i1⟩) (cmpi .slt),
    TRef.nullary (.of main_call1_c_3 : TRef sig ⟨S_, .i32⟩) (constantI S_ 32 0#32),
    TRef.binary (.of main_call1_v2 : TRef sig ⟨S_, .i32⟩) (.of main_call1_c_3 : TRef sig ⟨S_, .i32⟩) (.of main_call1_v9 : TRef sig ⟨S_, .i1⟩) (cmpi .slt),
    TRef.unary (.of main_call1_v9 : TRef sig ⟨S_, .i1⟩) (.of main_call1_v10 : TRef sig ⟨S64x24, .i1⟩) (broadcastInDim S64x24 ![] bcast_S_S64x24),
    TRef.binary (.of main_call1_v8 : TRef sig ⟨S64x24, .i1⟩) (.of main_call1_v10 : TRef sig ⟨S64x24, .i1⟩) (.of main_call1_v11 : TRef sig ⟨S64x24, .i1⟩) (cmpi .ne),
    TRef.binary (.of main_call1_v11 : TRef sig ⟨S64x24, .i1⟩) (.of main_call1_v6 : TRef sig ⟨S64x24, .i1⟩) (.of main_call1_v12 : TRef sig ⟨S64x24, .i1⟩) andi,
    TRef.unary (.of main_call1_v2 : TRef sig ⟨S_, .i32⟩) (.of main_call1_v13 : TRef sig ⟨S64x24, .i32⟩) (broadcastInDim S64x24 ![] bcast_S_S64x24),
    TRef.binary (.of main_call1_v4 : TRef sig ⟨S64x24, .i32⟩) (.of main_call1_v13 : TRef sig ⟨S64x24, .i32⟩) (.of main_call1_v14 : TRef sig ⟨S64x24, .i32⟩) addi,
    TRef.ternary (.of main_call1_v12 : TRef sig ⟨S64x24, .i1⟩) (.of main_call1_v14 : TRef sig ⟨S64x24, .i32⟩) (.of main_call1_v4 : TRef sig ⟨S64x24, .i32⟩) (.of main_v5 : TRef sig ⟨S64x24, .i32⟩) select,
    -- W[dow] + W[7 + tod], transposed
    nullary main_c_1 (constantI S_ 32 0#32),
    unary main_c_1 main_v6 (broadcastInDim S64x24 ![] bcast_S_S64x24 : (⟨S_, .i32⟩ : BufTy).Contents (Elt F) → (⟨S64x24, .i32⟩ : BufTy).Contents (Elt F)),
    binary main_v2 main_v6 main_v7 (cmpi .slt : (⟨S64x24, .i32⟩ : BufTy).Contents (Elt F) → (⟨S64x24, .i32⟩ : BufTy).Contents (Elt F) → (⟨S64x24, .i1⟩ : BufTy).Contents (Elt F)),
    nullary main_c_2 (constantI S_ 32 295#32),
    unary main_c_2 main_v8 (broadcastInDim S64x24 ![] bcast_S_S64x24 : (⟨S_, .i32⟩ : BufTy).Contents (Elt F) → (⟨S64x24, .i32⟩ : BufTy).Contents (Elt F)),
    binary main_v2 main_v8 main_v9 (addi : (⟨S64x24, .i32⟩ : BufTy).Contents (Elt F) → (⟨S64x24, .i32⟩ : BufTy).Contents (Elt F) → (⟨S64x24, .i32⟩ : BufTy).Contents (Elt F)),
    ternary main_v7 main_v9 main_v2 main_v10 (select : (⟨S64x24, .i1⟩ : BufTy).Contents (Elt F) → (⟨S64x24, .i32⟩ : BufTy).Contents (Elt F) → (⟨S64x24, .i32⟩ : BufTy).Contents (Elt F) → (⟨S64x24, .i32⟩ : BufTy).Contents (Elt F)),
    unary main_v10 main_v11 (broadcastInDim S64x24x1 ![0, 1] bcast_S64x24_S64x24x1_0_1 : (⟨S64x24, .i32⟩ : BufTy).Contents (Elt F) → (⟨S64x24x1, .i32⟩ : BufTy).Contents (Elt F)),
    binary main_arg1 main_v11 main_v12 ((fun x i => Host.gather gather_S295x64_S64x24x1_S64x24x64_2_0_n_n_0_2_164 x i) : (⟨S295x64, .f32⟩ : BufTy).Contents (Elt F) → (⟨S64x24x1, .i32⟩ : BufTy).Contents (Elt F) → (⟨S64x24x64, .f32⟩ : BufTy).Contents (Elt F)),
    nullary main_c_3 (constantI S_ 32 7#32),
    unary main_c_3 main_v13 (broadcastInDim S64x24 ![] bcast_S_S64x24 : (⟨S_, .i32⟩ : BufTy).Contents (Elt F) → (⟨S64x24, .i32⟩ : BufTy).Contents (Elt F)),
    binary main_v13 main_v5 main_v14 (addi : (⟨S64x24, .i32⟩ : BufTy).Contents (Elt F) → (⟨S64x24, .i32⟩ : BufTy).Contents (Elt F) → (⟨S64x24, .i32⟩ : BufTy).Contents (Elt F)),
    nullary main_c_4 (constantI S_ 32 0#32),
    unary main_c_4 main_v15 (broadcastInDim S64x24 ![] bcast_S_S64x24 : (⟨S_, .i32⟩ : BufTy).Contents (Elt F) → (⟨S64x24, .i32⟩ : BufTy).Contents (Elt F)),
    binary main_v14 main_v15 main_v16 (cmpi .slt : (⟨S64x24, .i32⟩ : BufTy).Contents (Elt F) → (⟨S64x24, .i32⟩ : BufTy).Contents (Elt F) → (⟨S64x24, .i1⟩ : BufTy).Contents (Elt F)),
    nullary main_c_5 (constantI S_ 32 295#32),
    unary main_c_5 main_v17 (broadcastInDim S64x24 ![] bcast_S_S64x24 : (⟨S_, .i32⟩ : BufTy).Contents (Elt F) → (⟨S64x24, .i32⟩ : BufTy).Contents (Elt F)),
    binary main_v14 main_v17 main_v18 (addi : (⟨S64x24, .i32⟩ : BufTy).Contents (Elt F) → (⟨S64x24, .i32⟩ : BufTy).Contents (Elt F) → (⟨S64x24, .i32⟩ : BufTy).Contents (Elt F)),
    ternary main_v16 main_v18 main_v14 main_v19 (select : (⟨S64x24, .i1⟩ : BufTy).Contents (Elt F) → (⟨S64x24, .i32⟩ : BufTy).Contents (Elt F) → (⟨S64x24, .i32⟩ : BufTy).Contents (Elt F) → (⟨S64x24, .i32⟩ : BufTy).Contents (Elt F)),
    unary main_v19 main_v20 (broadcastInDim S64x24x1 ![0, 1] bcast_S64x24_S64x24x1_0_1 : (⟨S64x24, .i32⟩ : BufTy).Contents (Elt F) → (⟨S64x24x1, .i32⟩ : BufTy).Contents (Elt F)),
    binary main_arg1 main_v20 main_v21 ((fun x i => Host.gather gather_S295x64_S64x24x1_S64x24x64_2_0_n_n_0_2_164 x i) : (⟨S295x64, .f32⟩ : BufTy).Contents (Elt F) → (⟨S64x24x1, .i32⟩ : BufTy).Contents (Elt F) → (⟨S64x24x64, .f32⟩ : BufTy).Contents (Elt F)),
    binary main_v12 main_v21 main_v22 (addf : (⟨S64x24x64, .f32⟩ : BufTy).Contents (Elt F) → (⟨S64x24x64, .f32⟩ : BufTy).Contents (Elt F) → (⟨S64x24x64, .f32⟩ : BufTy).Contents (Elt F)),
    unary main_v22 main_v23 ((transpose S64x64x24 [0, 2, 1] · transposes_S64x24x64_S64x64x24_0_2_1) : (⟨S64x24x64, .f32⟩ : BufTy).Contents (Elt F) → (⟨S64x64x24, .f32⟩ : BufTy).Contents (Elt F)) ]

/-- The two broadcasts that follow: the slab with a unit vertex axis, then that axis repeated 1024 times. -/
abbrev repeatOps : List (HloOp τ sig (Elt F)) :=
  [ unary main_v23 main_v24 (broadcastInDim S64x1x64x24 ![0, 2, 3] bcast_S64x64x24_S64x1x64x24_0_2_3 : (⟨S64x64x24, .f32⟩ : BufTy).Contents (Elt F) → (⟨S64x1x64x24, .f32⟩ : BufTy).Contents (Elt F)),
    unary main_v24 main_v25 (broadcastInDim S64x1024x64x24 ![0, 1, 2, 3] bcast_S64x1x64x24_S64x1024x64x24_0_1_2_3 : (⟨S64x1x64x24, .f32⟩ : BufTy).Contents (Elt F) → (⟨S64x1024x64x24, .f32⟩ : BufTy).Contents (Elt F)) ]

/-- @main's operations: the slab's, then the two broadcasts. -/
abbrev ops : List (HloOp τ sig (Elt F)) := slabOps ++ repeatOps

-- seventy-three binds re-associated, one rewrite under the chain per statement, the two calls' bodies unfolded in place
set_option maxRecDepth 4096 in
set_option maxHeartbeats 4000000 in
/-- @main is that straight line: @remainder and @_where unfolded at their calls, the records at their fields, and the
    sequencing re-associated. -/
theorem main_eq (c : Dev nD) : main (F := F) c = seq ops := by
  rw [show (ops : List (HloOp τ sig (Elt F))) = slabOps ++ repeatOps from rfl, seq_append]
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem slabOps_sub : (slabOps : List (HloOp τ sig (Elt F))).Forall fun op => op.bufs ⊆ tcRefs τ sig :=
  ⟨unary_bufs_sub .., reshape_bufs_sub .., nullary_bufs_sub ..,
    unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..,
    unary_bufs_sub .., reshape_bufs_sub .., nullary_bufs_sub ..,
    unary_bufs_sub .., nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., unary_bufs_sub ..⟩

theorem repeatOps_sub : (repeatOps : List (HloOp τ sig (Elt F))).Forall fun op => op.bufs ⊆ tcRefs τ sig :=
  ⟨unary_bufs_sub .., unary_bufs_sub ..⟩

theorem ops_sub : (ops : List (HloOp τ sig (Elt F))).Forall fun op => op.bufs ⊆ tcRefs τ sig :=
  List.forall_iff_forall_mem.mpr fun op hop => (List.mem_append.mp hop).elim
    (List.forall_iff_forall_mem.mp slabOps_sub op) (List.forall_iff_forall_mem.mp repeatOps_sub op)

/-- Every operation determines its results. -/
theorem slabOps_fresh : ∀ op ∈ (slabOps : List (HloOp τ sig (Elt F))), op.fresh = ∅ := by
  intro _ h; (repeat (cases h with | head => rfl | tail _ h => ?_)); exact nomatch h
theorem repeatOps_fresh : ∀ op ∈ (repeatOps : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op hop => (List.mem_append.mp hop).elim (slabOps_fresh op) (repeatOps_fresh op)

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The result buffer after the whole line: the two broadcasts of what the slab's operations leave in the slab's
    buffer. -/
theorem result_eq (V : Valuation τ sig (Elt F)) :
    after ops V (Proc.devRef .tc main_v25)
      = broadcastInDim S64x1024x64x24 ![0, 1, 2, 3] bcast_S64x1x64x24_S64x1024x64x24_0_1_2_3
          (broadcastInDim S64x1x64x24 ![0, 2, 3] bcast_S64x64x24_S64x1x64x24_0_2_3 (after slabOps V (Proc.devRef .tc main_v23))) := by
  rw [show (ops : List (HloOp τ sig (Elt F))) = slabOps ++ repeatOps from rfl, after_append]
  generalize after slabOps V = W
  after_results

/-- No operation of the line writes an argument's buffer. -/
theorem arg0_kept (V : Valuation τ sig (Elt F)) :
    after ops V (Proc.devRef .tc main_arg0) = V (Proc.devRef .tc main_arg0) := by
  rw [show (ops : List (HloOp τ sig (Elt F))) = slabOps ++ repeatOps from rfl, after_append]
  after_results_simp

theorem arg1_kept (V : Valuation τ sig (Elt F)) :
    after ops V (Proc.devRef .tc main_arg1) = V (Proc.devRef .tc main_arg1) := by
  rw [show (ops : List (HloOp τ sig (Elt F))) = slabOps ++ repeatOps from rfl, after_append]
  after_results_simp

end Cert.ReferenceIdeal.HostRun

end
-- ==== Proof.SharedSlab.lean ====
/-
  Both programs compute the slab the same way.

  The kernel's program and the reference run the SAME seventy-one host operations, in the same order, from their two
  arguments to the buffer of the slab e : [64, 64, 24] (only the last steps differ: a pallas_call against two
  broadcasts). So from argument contents that agree, the two slabs are equal — whatever those operations compute:
  the equality is read off the two folds, operation by operation, and never opens the remainder, the gathers or the
  transpose.
-/
import proofs.«118506_j33981781246639_1_alg».proof.Proof.Gen.KernelIdeal.Frame
import proofs.«118506_j33981781246639_1_alg».proof.Proof.ReferenceRun

noncomputable section

namespace Cert.SharedSlab

open Idealize.ShloMosaic Idealize.ShloMosaic.TcCoe Idealize.SL.Sem
open Idealize.ShloMosaic.StableHlo

variable {F : FTy → Type} [FloatOps F]

-- the operations' bodies are never needed: only which buffer each reads and writes
attribute [local irreducible] Host.gather Host.remsi transpose extractStridedSlice broadcastInDim in
set_option maxRecDepth 8192 in
set_option maxHeartbeats 1000000 in
/-- The slab's buffer after the reference's seventy-one operations, from contents `VR`, is the slab's buffer after
    the kernel program's host operations, from contents `VK`, when the two agree on the arguments. -/
theorem slab_eq (VK : Valuation Cert.KernelIdeal.τ Cert.KernelIdeal.sig (Elt F)) (VR : Valuation Cert.ReferenceIdeal.τ Cert.ReferenceIdeal.sig (Elt F))
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1)) :
    after Cert.ReferenceIdeal.HostRun.slabOps VR (Proc.devRef .tc Cert.ReferenceIdeal.main_v23)
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4]) VK
          (Proc.devRef .tc Cert.KernelIdeal.main_v23) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4,
    List.flatten_cons, List.flatten_nil, List.append_nil, List.cons_append, List.nil_append]
  after_results_simp
  rw [h0, h1]
  rfl

/-- The same, with the kernel program's side named as the contents the pallas_call's region is entered with. -/
theorem slab_eq_entry (m : (ℓ : Loc Cert.KernelIdeal.nD Cert.KernelIdeal.τ Cert.KernelIdeal.sig) → Buf (Elt F) ℓ) (c : Dev Cert.KernelIdeal.nD)
    (VR : Valuation Cert.ReferenceIdeal.τ Cert.ReferenceIdeal.sig (Elt F))
    (h0 : VR (Proc.devRef .tc Cert.ReferenceIdeal.main_arg0) = m ((c.tc : Thread Cert.KernelIdeal.nD Cert.KernelIdeal.τ).loc Cert.KernelIdeal.main_arg0))
    (h1 : VR (Proc.devRef .tc Cert.ReferenceIdeal.main_arg1) = m ((c.tc : Thread Cert.KernelIdeal.nD Cert.KernelIdeal.τ).loc Cert.KernelIdeal.main_arg1)) :
    after Cert.ReferenceIdeal.HostRun.slabOps VR (Proc.devRef .tc Cert.ReferenceIdeal.main_v23) = Cert.KernelIdeal.Gen.V m c Cert.KernelIdeal.main_v23 :=
  slab_eq (fun b => m (c, b)) VR h0 h1

end Cert.SharedSlab

end
-- ==== Proof.RepeatTwice.lean ====
/-
  The reference's two broadcasts are the kernel's repetition.

  The first broadcast places axes (0, 1, 2) of the slab at axes (0, 2, 3) of a [64, 1, 64, 24] array; the second
  repeats that array's unit axis 1024 times. Entry (b, n, c, s) of the result reads the unit axis at 0 and the other
  three axes at (b, c, s): it is e (b, c, s), the repeated slab.
-/
import proofs.«118506_j33981781246639_1_alg».proof.Proof.KernelValue
import proofs.«118506_j33981781246639_1_alg».proof.Proof.Gen.ReferenceIdeal

noncomputable section

namespace Cert.RepeatTwice

open Idealize.ShloMosaic Idealize.ShloMosaic.TcCoe Idealize.SL.Sem
open Idealize.ShloMosaic.ValueIdx

variable {F : FTy → Type} [FloatOps F]

theorem broadcasts_eq (e : Cert.ReferenceIdeal.S64x64x24.Idx → Elt F .f32) :
    broadcastInDim Cert.ReferenceIdeal.S64x1024x64x24 ![0, 1, 2, 3] Cert.ReferenceIdeal.Gen.bcast_S64x1x64x24_S64x1024x64x24_0_1_2_3
        (broadcastInDim Cert.ReferenceIdeal.S64x1x64x24 ![0, 2, 3] Cert.ReferenceIdeal.Gen.bcast_S64x64x24_S64x1x64x24_0_2_3 e)
      = Cert.KernelIdeal.Repeat.repeatSlab e := by
  funext i
  unfold Cert.KernelIdeal.Repeat.repeatSlab broadcastInDim
  congr 1
  funext a; apply Fin.ext
  match a with
  | ⟨0, _⟩ => rfl
  | ⟨1, _⟩ => rfl
  | ⟨2, _⟩ => rfl

end Cert.RepeatTwice

end
-- ==== Proof.lean ====
/-
  The certificate of the vertex-repeat kernel against its jnp reference.

  Both programs first build, by the same seventy-one host operations, the slab e : [64, 64, 24] of embedding sums
  e (b, c, s) = W[t(b, s, 0) mod 7, c] + W[7 + t(b, s, 1) mod 288, c]. The reference then broadcasts e to
  [64, 1024, 64, 24] along a new vertex axis; the kernel program does the same with a pallas_call over a 64 × 2 grid,
  each point copying block b of e into 512 rows of the output. Both results are the function
  (b, n, c, s) ↦ e (b, c, s) of the one slab, so they are equal — no arithmetic on the extended reals is involved, and
  the precondition is not used.

  The frames of the two kernel programs are the generated ones; the reference's frame and value come from its run read
  as a fold of host operations (Proof/ReferenceRun.lean); the kernel's value is the generated blockwise leg closed over
  the grid (Proof/KernelValue.lean); Proof/SharedSlab.lean equates the two slabs and Proof/RepeatTwice.lean the two
  ways of repeating one. The ideal pass rewrote nothing, so `preserves` has no conjunct.
-/
import proofs.«118506_j33981781246639_1_alg».proof.Defs
import proofs.«118506_j33981781246639_1_alg».proof.Proof.Gen.Kernel
import proofs.«118506_j33981781246639_1_alg».proof.Proof.Gen.Kernel.Skeleton
import proofs.«118506_j33981781246639_1_alg».proof.Proof.Gen.Kernel.Launch
import proofs.«118506_j33981781246639_1_alg».proof.Proof.Gen.Kernel.Points
import proofs.«118506_j33981781246639_1_alg».proof.Proof.Gen.Kernel.Frame
import proofs.«118506_j33981781246639_1_alg».proof.Proof.Gen.KernelIdeal
import proofs.«118506_j33981781246639_1_alg».proof.Proof.Gen.KernelIdeal.Skeleton
import proofs.«118506_j33981781246639_1_alg».proof.Proof.Gen.KernelIdeal.Launch
import proofs.«118506_j33981781246639_1_alg».proof.Proof.Gen.KernelIdeal.Points
import proofs.«118506_j33981781246639_1_alg».proof.Proof.Gen.KernelIdeal.Frame
import proofs.«118506_j33981781246639_1_alg».proof.Proof.Gen.ReferenceIdeal
import proofs.«118506_j33981781246639_1_alg».proof.Proof.Gen.Pre_finite_inputs
import proofs.«118506_j33981781246639_1_alg».proof.Proof.KernelValue
import proofs.«118506_j33981781246639_1_alg».proof.Proof.ReferenceRun
import proofs.«118506_j33981781246639_1_alg».proof.Proof.SharedSlab
import proofs.«118506_j33981781246639_1_alg».proof.Proof.RepeatTwice
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference terminates with every buffer at its operations' fold, and no operation writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.HostRun.arg0_kept _),
      (h c Cert.ReferenceIdeal.main_arg1).trans (Cert.ReferenceIdeal.HostRun.arg1_kept _)⟩)
    (Cert.ReferenceIdeal.HostRun.run_main (F := Ideal) m ρ)

/-- Both results are the slab repeated along the vertex axis: the kernel's by its blocks, the reference's by its two
    broadcasts, and the two slabs are one because the same operations made them from the same arguments. -/
theorem algebraic : Cert.algebraic_KernelIdeal_ReferenceIdeal := by
  intro m ρ m' ρ' _ hagree
  refine ⟨fun c => Cert.KernelIdeal.Repeat.repeatSlab (Cert.KernelIdeal.Gen.V m c Cert.KernelIdeal.main_v23),
    Cert.KernelIdeal.Repeat.run (F := Ideal) m ρ, ?_⟩
  refine (θ_run Cert.ReferenceIdeal.defs _ _).mono (fun r h c => ⟨?_, ?_, ?_⟩)
    (Cert.ReferenceIdeal.HostRun.run_main (F := Ideal) m' ρ')
  · rw [h c Cert.ReferenceIdeal.main_v25, Cert.ReferenceIdeal.HostRun.result_eq,
      Cert.SharedSlab.slab_eq_entry m c (launchContents m' c) (hagree c).1 (hagree c).2]
    exact Cert.RepeatTwice.broadcasts_eq _
  · exact (h c Cert.ReferenceIdeal.main_arg0).trans (Cert.ReferenceIdeal.HostRun.arg0_kept _)
  · exact (h c Cert.ReferenceIdeal.main_arg1).trans (Cert.ReferenceIdeal.HostRun.arg1_kept _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
